-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 42
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S1x64, .f32⟩
  | .hbm, ⟨41, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Spec.lean ====
import Idealize.ShloMosaic.PureOps.Ideal.Laws
import Idealize.ShloMosaic.Lib.ValueIdx
import Idealize.ShloMosaic.Lib.Pipeline.Value
import proofs.«175846_j13529146982743_1_alg».proof.Proof.LibPlainDot

/-!
  One graph-convolution layer on node features of width 64, over the extended reals.

  For node features `x` and aggregated neighbour features `a` (both [N, 64]), weights `wr`, `wn` (both [64, 64])
  and a bias `b` (64 entries), entry (p, q) of the layer is

      (∑ k, x(p, k) · wr(k, q)  +  ∑ k, a(p, k) · wn(k, q))  +  b(q),

  grouped exactly so: the two matrix products are added first, the bias last. The first layer of the network is
  followed by a maximum with zero. Row p of the result depends on row p of `x` and of `a` only, so the layer of a
  block of rows is that block of the layer of the whole array: this is what lets a kernel that walks the rows
  5000 at a time agree with a reference that multiplies the whole arrays at once.
-/

open scoped BigOperators

noncomputable section

namespace Cert.Spec

open Idealize.ShloMosaic Idealize.ShloMosaic.ValueIdx

/-- Node features: N rows of 64 columns. -/
abbrev Feat (N : Nat) : Shape := ⟨2, ![N, 64]⟩
/-- A weight matrix. -/
abbrev Wt : Shape := ⟨2, ![64, 64]⟩

/-- Entry (p, q) of one layer: the root product plus the neighbour product, then the bias. -/
def layerAt {N : Nat} (x a : (Feat N).Idx → EReal) (wr wn : Wt.Idx → EReal) (b : Fin 64 → EReal)
    (p : Fin N) (q : Fin 64) : EReal :=
  ((∑ k : Fin 64, x (ix2 p k) * wr (ix2 k q)) + ∑ k : Fin 64, a (ix2 p k) * wn (ix2 k q)) + b q

/-- The layer as an array. -/
def layer {N : Nat} (x a : (Feat N).Idx → EReal) (wr wn : Wt.Idx → EReal) (b : Fin 64 → EReal) :
    (Feat N).Idx → EReal :=
  fun i => layerAt x a wr wn b (i 0) (i 1)

/-- The layer followed by the maximum with the float zero (kept as its word: both programs spell the same word). -/
def layerRelu {N : Nat} (x a : (Feat N).Idx → EReal) (wr wn : Wt.Idx → EReal) (b : Fin 64 → EReal) :
    (Feat N).Idx → EReal :=
  fun i => max (layerAt x a wr wn b (i 0) (i 1)) (Ideal.ofBits .f32 0x00000000#32)

theorem layer_ix2 {N : Nat} (x a : (Feat N).Idx → EReal) (wr wn : Wt.Idx → EReal) (b : Fin 64 → EReal)
    (p : Fin N) (q : Fin 64) : layer x a wr wn b (ix2 p q) = layerAt x a wr wn b p q := rfl

theorem layerRelu_ix2 {N : Nat} (x a : (Feat N).Idx → EReal) (wr wn : Wt.Idx → EReal) (b : Fin 64 → EReal)
    (p : Fin N) (q : Fin 64) :
    layerRelu x a wr wn b (ix2 p q) = max (layerAt x a wr wn b p q) (Ideal.ofBits .f32 0x00000000#32) := rfl

/-- An entry of the layer reads only row p of the two feature arrays: if two pairs of feature arrays agree on that
    row, shifted by a row offset, their layers agree there. -/
theorem layerAt_congr {N N' : Nat} (x a : (Feat N).Idx → EReal) (x' a' : (Feat N').Idx → EReal)
    (wr wn : Wt.Idx → EReal) (b : Fin 64 → EReal) (p : Fin N) (p' : Fin N') (q : Fin 64)
    (hx : ∀ k : Fin 64, x (ix2 p k) = x' (ix2 p' k)) (ha : ∀ k : Fin 64, a (ix2 p k) = a' (ix2 p' k)) :
    layerAt x a wr wn b p q = layerAt x' a' wr wn b p' q := by
  unfold layerAt
  simp only [hx, ha]

/-- The two-layer network over an aggregation `agg` of a feature array (the same function of the edge list in both
    layers): the first layer with its maximum on the input features and their aggregation, the second layer on the
    first layer's result and its aggregation. -/
def net (agg : ((Feat 50000).Idx → EReal) → ((Feat 50000).Idx → EReal)) (x : (Feat 50000).Idx → EReal)
    (w1r w1n : Wt.Idx → EReal) (b1 : Fin 64 → EReal) (w2r w2n : Wt.Idx → EReal) (b2 : Fin 64 → EReal) :
    (Feat 50000).Idx → EReal :=
  layer (layerRelu x (agg x) w1r w1n b1) (agg (layerRelu x (agg x) w1r w1n b1)) w2r w2n b2

end Cert.Spec

end
-- ==== Proof.KBody.lean ====
import proofs.«175846_j13529146982743_1_alg».proof.Proof.Gen.KernelIdeal.Skeleton
import proofs.«175846_j13529146982743_1_alg».proof.Proof.Spec
import Idealize.ShloMosaic.Lib.ValueIdx
import Idealize.ShloMosaic.Lib.Pipeline.Value
import Idealize.ShloMosaic.PureOps.Ideal.Laws

/-!
  What one invocation of the kernel body stores, entry by entry, at the ideal values.

  The body loads a 5000-row block of the features and of the aggregated features, the two weight matrices and the
  bias row [1, 64]; it multiplies each feature block by its weight matrix into a zero accumulator, adds the two
  products, adds the bias row broadcast down the rows, and (first layer only) takes the maximum with zero. A change
  of float format is the identity at the ideal values and a matrix product into a zero accumulator is the plain sum
  over the contracted axis, so entry (p, q) of the stored block is the layer's entry (p, q) of the loaded blocks.
-/

open scoped BigOperators

noncomputable section

namespace Cert.KernelIdeal.Body

open Cert.KernelIdeal Cert.KernelIdeal.Gen Idealize.ShloMosaic Idealize.ShloMosaic.ValueIdx Cert.Spec

/-- The bias row broadcast down the 5000 rows reads, at (p, q), the row's entry (0, q). -/
theorem bias_bcast_apply (x4 : Vec Ideal S1x64 .f32) (p : Fin 5000) (q : Fin 64) :
    broadcastTo S5000x64 (shapeCast S1x64 x4 Facts₀.shapeCasts_S1x64_S1x64) Facts₀.broadcasts_S1x64_S5000x64 (ix2 p q)
      = x4 (ix2 0 q) := by
  rw [shapeCast_self]
  exact broadcastTo_apply x4 _ (ix2 p q) (ix2 0 q) (fun a => by
    match a with
    | ⟨0, _⟩ => rfl
    | ⟨1, _⟩ => rfl)

/-- A matrix product of a 5000-row block into the zero accumulator, at (p, q). -/
theorem block_matmul_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  Cert.Lib.PlainDot.matmul_zero_apply (M := 5000) (K := 64) (N := 64) dot_S5000x64_S64x64_S5000x64_1_0_0_1_n_n
    rfl rfl rfl rfl rfl rfl none l r p q

/-- The first layer's stored block at (p, q): the layer's entry of the loaded blocks, then the maximum with zero. -/
theorem pay0_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = max (layerAt (N := 5000) x0 x1 x2 x3 (fun q => x4 (ix2 0 q)) p q) (Ideal.ofBits .f32 0x00000000#32) := by
  unfold k0_pay1
  rw [maximumf_apply, addf_apply, addf_apply, block_matmul_apply, block_matmul_apply, bias_bcast_apply, shapeCast_self]
  rfl

/-- The second layer's stored block at (p, q): the layer's entry of the loaded blocks. -/
theorem pay1_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = layerAt (N := 5000) x0 x1 x2 x3 (fun q => x4 (ix2 0 q)) p q := by
  unfold k1_pay1
  rw [addf_apply, addf_apply, block_matmul_apply, block_matmul_apply, bias_bcast_apply, shapeCast_self, shapeCast_self]
  rfl

end Cert.KernelIdeal.Body

end
-- ==== Proof.KRegion0.lean ====
import proofs.«175846_j13529146982743_1_alg».proof.Proof.Gen.KernelIdeal.Frame
import proofs.«175846_j13529146982743_1_alg».proof.Proof.KBody
import Idealize.ShloMosaic.Lib.Pipeline.Value

/-!
  The first layer's region, from any contents `V` it is entered at: its output array ends at the layer of the
  arrays it reads.

  The grid has ten points. At point t the region stages rows [5000·t, 5000·t + 5000) of the feature array and of the
  aggregated-feature array, the two weight matrices whole and the bias row whole, runs the body, and writes the
  stored block back to rows [5000·t, 5000·t + 5000) of the output. An entry of the layer reads one row of the two
  feature arrays, so the stored block is that block of the layer of the whole arrays; the ten blocks tile the 50000
  rows (row r is in block r / 5000), so the output array ends at the layer.
-/

set_option maxRecDepth 16384

open scoped BigOperators

noncomputable section

namespace Cert.KernelIdeal.Region0

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output window are at block row t, column
    block 0; the weights and the bias are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One invocation, over variables: if the two feature blocks are rows [5000·n, 5000·n + 5000) of whole arrays X and A,
    and the weights and the bias row are whole, then entry j of the stored block is the layer of the whole arrays at
    row 5000·n + j₀, column j₁. -/
theorem stored_eq (X A : (Feat 50000).Idx → EReal) (WR WN : Wt.Idx → EReal) (B : (⟨2, ![1, 64]⟩ : Shape).Idx → EReal)
    (x0 x1 : Vec Ideal S5000x64 .f32) (x2 x3 : Vec Ideal S64x64 .f32) (x4 : Vec Ideal S1x64 .f32)
    (n : Nat) (hn : n < 10)
    (h0 : ∀ (p : Fin 5000) (k : Fin 64), x0 (ix2 p k) = X (ix2 ⟨n * 5000 + p.val, by omega⟩ k))
    (h1 : ∀ (p : Fin 5000) (k : Fin 64), x1 (ix2 p k) = A (ix2 ⟨n * 5000 + p.val, by omega⟩ k))
    (h2 : x2 = WR) (h3 : x3 = WN) (h4 : x4 = B) (j : S5000x64.Idx) :
    k0_pay1 (F := Ideal) x0 x1 x2 x3 x4 j
      = layerRelu X A WR WN (fun q => B (ix2 0 q)) (ix2 ⟨n * 5000 + (j 0).val, by have := idx2_lt0 j; omega⟩ (j 1)) := by
  obtain ⟨p, q, rfl⟩ : ∃ (p : Fin 5000) (q : Fin 64), j = ix2 p q := ⟨j 0, j 1, eq_ix2 j⟩
  show k0_pay1 (F := Ideal) x0 x1 x2 x3 x4 (ix2 p q)
      = layerRelu X A WR WN (fun q => B (ix2 0 q)) (ix2 ⟨n * 5000 + p.val, by omega⟩ q)
  rw [pay0_apply, layerRelu_ix2]
  subst h2 h3 h4
  rw [layerAt_congr (N := 5000) (N' := 50000) x0 x1 X A x2 x3 (fun q => x4 (ix2 0 q)) p ⟨n * 5000 + p.val, by omega⟩ q
    (fun k => h0 p k) (fun k => h1 p k)]

/-- The grid has ten points. -/
theorem lt_ten (t : Fin cfg0.N) : t.val < 10 := by
  exact Nat.lt_of_lt_of_eq t.isLt (show cfg0.N = 10 from N_0)

/-- What point t writes back is block t of the layer of the arrays the region reads. -/
theorem flushed_eq (c : Dev nD) (t : Fin cfg0.N) :
    (dat0 (F := Ideal) V c).flushed 5 t = ((cfg0.win 5).blk t).view.read (Elt Ideal)
      (layerRelu (N := 50000) (V c main_arg0) (V c main_v13) (V c main_arg2) (V c main_arg3) (fun q => V c main_v14 (ix2 0 q))) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11⟩ := idx_facts t
  have ht : t.val < 10 := lt_ten t
  funext j
  show k0_pay1 (F := Ideal) (iblk0 V c 0 t) (iblk0 V c 1 t) (iblk0 V c 2 t) (iblk0 V c 3 t) (iblk0 V c 4 t) j
    = layerRelu (N := 50000) (V c main_arg0) (V c main_v13) (V c main_arg2) (V c main_arg3) (fun q => V c main_v14 (ix2 0 q))
        (((cfg0.win 5).blk t).view.emb j)
  have hj0 : (j 0).val < 5000 := (j 0).isLt
  have hj1 : (j 1).val < 64 := (j 1).isLt
  have hemb : ((cfg0.win 5).blk t).view.emb j = ix2 ⟨t.val * 5000 + (j 0).val, by omega⟩ (j 1) := by
    funext a; apply Fin.ext
    match a with
    | ⟨0, _⟩ => show win0_5.index t (0 : Fin 2) * 5000 + 1 * (j 0).val = t.val * 5000 + (j 0).val; omega
    | ⟨1, _⟩ => show win0_5.index t (1 : Fin 2) * 64 + 1 * (j 1).val = (j 1).val; omega
  rw [hemb]
  refine stored_eq (V c main_arg0) (V c main_v13) (V c main_arg2) (V c main_arg3) (V c main_v14)
    (iblk0 V c 0 t) (iblk0 V c 1 t) (iblk0 V c 2 t) (iblk0 V c 3 t) (iblk0 V c 4 t) t.val ht ?_ ?_ ?_ ?_ ?_ j
  · intro p k
    show V c main_arg0 (((cfg0.win 0).blk t).view.emb (ix2 p k)) = V c main_arg0 (ix2 ⟨t.val * 5000 + p.val, by omega⟩ k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro p k
    show V c main_v13 (((cfg0.win 1).blk t).view.emb (ix2 p k)) = V c main_v13 (ix2 ⟨t.val * 5000 + p.val, by omega⟩ k)
    refine congrArg (V c main_v13) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_v14 (((cfg0.win 4).blk t).view.emb y) = V c main_v14 y
    refine congrArg (V c main_v14) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the output array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Every row is in some point's block: row r is in block r / 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 5000, by rw [show cfg0.N = 10 from N_0]; omega⟩
  obtain ⟨e0, e1, e2, e3, e4, e5, e6, e7, e8, e9, e10, e11⟩ := idx_facts t
  have htv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: the layer of the arrays the region reads, as the region finds them. -/
theorem final (c : Dev nD) :
    (dat0 (F := Ideal) V c).arrAt 5 cfg0.N
      = layerRelu (N := 50000) (V c main_arg0) (V c main_v13) (V c main_arg2) (V c main_arg3) (fun q => V c main_v14 (ix2 0 q)) :=
  (dat0 (F := Ideal) V c).arrAt_eq_of_cover 5 _ (fun t _ => flushed_eq V c t) cover

end Cert.KernelIdeal.Region0

end
-- ==== Proof.KHost.lean ====
import proofs.«175846_j13529146982743_1_alg».proof.Proof.Gen.KernelIdeal.Frame
import Idealize.ShloMosaic.Lib.StableHlo.Run
import Idealize.ShloMosaic.Lib.Pipeline.Value
import Idealize.ShloMosaic.Lib.ValueIdx

/-!
  The host operations around the two regions of the idealized kernel program, read back.

  Before each region the host computes the neighbour aggregation of a feature array f: row 0 of the edge list holds
  the source ids, row 1 the destination ids; a negative source id is wrapped by adding 50000; the rows of f at the
  source ids are gathered and scatter-added, at the destination ids, into an array of zeros. Before the first region
  f is the input features, before the second it is the first region's output. The bias vector is reshaped to a row
  [1, 64]. The aggregation is kept as one named function of the edge list and of f and is never opened: the
  reference applies the same operations.
-/

set_option maxRecDepth 16384

noncomputable section

namespace Cert.KernelIdeal.Host

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]

/-- The source ids: row 0 of the edge list. -/
def srcOf (e : IVec S2x800000 32) : IVec S800000 32 :=
  shapeCast _ (extractStridedSlice S1x800000 ![0, 0] e Facts₀.slices_S2x800000_S1x800000_0_0) Facts₀.shapeCasts_S1x800000_S800000

/-- The destination ids: row 1 of the edge list. -/
def dstOf (e : IVec S2x800000 32) : IVec S800000 32 :=
  shapeCast _ (extractStridedSlice S1x800000 ![1, 0] e Facts₀.slices_S2x800000_S1x800000_1_0) Facts₀.shapeCasts_S1x800000_S800000

/-- The neighbour aggregation of a feature array: rows gathered at the wrapped source ids, scatter-added at the
    destination ids into zeros. -/
def aggOf (s d : IVec S800000 32) (f : FVec F S50000x64 .f32) : FVec F S50000x64 .f32 :=
  Host.scatterAdd scatter_S50000x64_S800000x1_S800000x64_1_0_0_1
    (broadcastInDim S50000x64 ![] Facts₀.bcast_S_S50000x64 (constant S_ .f32 0x00000000#32))
    (broadcastInDim S800000x1 ![0] Facts₀.bcast_S800000_S800000x1_0 d)
    (Host.gather gather_S50000x64_S800000x1_S800000x64_1_0_n_n_0_1_164 f
      (broadcastInDim S800000x1 ![0] Facts₀.bcast_S800000_S800000x1_0
        (select (cmpi .slt s (broadcastInDim S800000 ![] Facts₀.bcast_S_S800000 (constantI S_ 32 0#32)))
          (addi s (broadcastInDim S800000 ![] Facts₀.bcast_S_S800000 (constantI S_ 32 50000#32))) s)))

variable (m : (ℓ : Loc nD τ sig) → Buf (Elt F) ℓ) (ρ : Dev nD → PrngReg)

/-! ## Entering the first region -/

theorem V1_arg0 (c : Dev nD) : V1 m ρ c main_arg0 = m ((c : Thread nD τ).loc main_arg0) := by
  show StableHlo.after hostOps0 (W0 m ρ c) (Proc.devRef .tc main_arg0) = _
  after_results <;> rfl

theorem V1_arg2 (c : Dev nD) : V1 m ρ c main_arg2 = m ((c : Thread nD τ).loc main_arg2) := by
  show StableHlo.after hostOps0 (W0 m ρ c) (Proc.devRef .tc main_arg2) = _
  after_results <;> rfl

theorem V1_arg3 (c : Dev nD) : V1 m ρ c main_arg3 = m ((c : Thread nD τ).loc main_arg3) := by
  show StableHlo.after hostOps0 (W0 m ρ c) (Proc.devRef .tc main_arg3) = _
  after_results <;> rfl

theorem V1_arg5 (c : Dev nD) : V1 m ρ c main_arg5 = m ((c : Thread nD τ).loc main_arg5) := by
  show StableHlo.after hostOps0 (W0 m ρ c) (Proc.devRef .tc main_arg5) = _
  after_results <;> rfl

theorem V1_arg6 (c : Dev nD) : V1 m ρ c main_arg6 = m ((c : Thread nD τ).loc main_arg6) := by
  show StableHlo.after hostOps0 (W0 m ρ c) (Proc.devRef .tc main_arg6) = _
  after_results <;> rfl

theorem V1_arg7 (c : Dev nD) : V1 m ρ c main_arg7 = m ((c : Thread nD τ).loc main_arg7) := by
  show StableHlo.after hostOps0 (W0 m ρ c) (Proc.devRef .tc main_arg7) = _
  after_results <;> rfl

theorem V1_src (c : Dev nD) : V1 m ρ c main_v1 = srcOf (m ((c : Thread nD τ).loc main_arg1)) := by
  show StableHlo.after hostOps0 (W0 m ρ c) (Proc.devRef .tc main_v1) = _
  after_results <;> rfl

theorem V1_dst (c : Dev nD) : V1 m ρ c main_v3 = dstOf (m ((c : Thread nD τ).loc main_arg1)) := by
  show StableHlo.after hostOps0 (W0 m ρ c) (Proc.devRef .tc main_v3) = _
  after_results <;> rfl

/-- The first region's aggregated features: the aggregation of the input features. -/
theorem V1_agg (c : Dev nD) :
    V1 m ρ c main_v13 = aggOf (srcOf (m ((c : Thread nD τ).loc main_arg1))) (dstOf (m ((c : Thread nD τ).loc main_arg1)))
      (m ((c : Thread nD τ).loc main_arg0)) := by
  show StableHlo.after hostOps0 (W0 m ρ c) (Proc.devRef .tc main_v13) = _
  after_results <;> rfl

/-- The first region's bias row: the bias vector reshaped. -/
theorem V1_bias (c : Dev nD) :
    V1 m ρ c main_v14 = shapeCast _ (m ((c : Thread nD τ).loc main_arg4)) Facts₀.shapeCasts_S64_S1x64 := by
  show StableHlo.after hostOps0 (W0 m ρ c) (Proc.devRef .tc main_v14) = _
  after_results <;> rfl

/-! ## Between the regions -/

theorem W2_src (c : Dev nD) : W2 m ρ c (Proc.devRef .tc main_v1) = srcOf (m ((c : Thread nD τ).loc main_arg1)) :=
  (W2_of_ne m ρ c main_v1 (by decide)).trans (V1_src m ρ c)

theorem W2_dst (c : Dev nD) : W2 m ρ c (Proc.devRef .tc main_v3) = dstOf (m ((c : Thread nD τ).loc main_arg1)) :=
  (W2_of_ne m ρ c main_v3 (by decide)).trans (V1_dst m ρ c)

theorem W2_arg5 (c : Dev nD) : W2 m ρ c (Proc.devRef .tc main_arg5) = m ((c : Thread nD τ).loc main_arg5) :=
  (W2_of_ne m ρ c main_arg5 (by decide)).trans (V1_arg5 m ρ c)

theorem W2_arg6 (c : Dev nD) : W2 m ρ c (Proc.devRef .tc main_arg6) = m ((c : Thread nD τ).loc main_arg6) :=
  (W2_of_ne m ρ c main_arg6 (by decide)).trans (V1_arg6 m ρ c)

theorem W2_arg7 (c : Dev nD) : W2 m ρ c (Proc.devRef .tc main_arg7) = m ((c : Thread nD τ).loc main_arg7) :=
  (W2_of_ne m ρ c main_arg7 (by decide)).trans (V1_arg7 m ρ c)

/-! ## Entering the second region -/

/-- The second region's features are the first region's output, untouched by the host operations between. -/
theorem V3_feat (c : Dev nD) : V3 m ρ c main_v15 = W2 m ρ c (Proc.devRef .tc main_v15) := by
  show StableHlo.after hostOps1 (W2 m ρ c) (Proc.devRef .tc main_v15) = _
  after_results <;> rfl

theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  after_results <;> rfl

theorem V3_arg6 (c : Dev nD) : V3 m ρ c main_arg6 = m ((c : Thread nD τ).loc main_arg6) := by
  refine Eq.trans ?_ (W2_arg6 m ρ c)
  show StableHlo.after hostOps1 (W2 m ρ c) (Proc.devRef .tc main_arg6) = _
  after_results <;> rfl

/-- The second region's aggregated features: the aggregation of the first region's output. -/
theorem V3_agg (c : Dev nD) :
    V3 m ρ c main_v25 = aggOf (srcOf (m ((c : Thread nD τ).loc main_arg1))) (dstOf (m ((c : Thread nD τ).loc main_arg1)))
      (W2 m ρ c (Proc.devRef .tc main_v15)) := by
  rw [← W2_src m ρ c, ← W2_dst m ρ c]
  show StableHlo.after hostOps1 (W2 m ρ c) (Proc.devRef .tc main_v25) = _
  after_results <;> rfl

/-- The second region's bias row: the second bias vector reshaped. -/
theorem V3_bias (c : Dev nD) :
    V3 m ρ c main_v26 = shapeCast _ (m ((c : Thread nD τ).loc main_arg7)) Facts₀.shapeCasts_S64_S1x64 := by
  rw [← W2_arg7 m ρ c]
  show StableHlo.after hostOps1 (W2 m ρ c) (Proc.devRef .tc main_v26) = _
  after_results <;> rfl

/-- A bias vector reshaped to a row reads, at (0, q), the vector's entry q. -/
theorem bias_row_apply {α : Type} (b : S64.Idx → α) (q : Fin 64) :
    shapeCast S1x64 b Facts₀.shapeCasts_S64_S1x64 (ix2 0 q) = b (ix1 q) :=
  shapeCast_apply b _ (ix2 0 q) (ix1 q) (by
    rw [Shape.rowMajor_val_one, Shape.rowMajor_val_two]
    show q.val = 0 * 64 + q.val
    omega)

end Cert.KernelIdeal.Host

end
-- ==== Proof.KValue.lean ====
import proofs.«175846_j13529146982743_1_alg».proof.Proof.KRegion0
import proofs.«175846_j13529146982743_1_alg».proof.Proof.KRegion1
import proofs.«175846_j13529146982743_1_alg».proof.Proof.KHost
import proofs.«175846_j13529146982743_1_alg».proof.Proof.KRun

/-!
  The idealized kernel program's result as the two-layer network of its arguments.

  The final memory holds at the result buffer what the second region's write-backs leave: the second layer of the
  arrays that region is entered at. Those are the first region's output (which the host operations between the
  regions do not touch), its aggregation, the second weights and the second bias row. The first region's output is
  the first layer, with its maximum, of the input features, their aggregation, the first weights and the first bias
  row. A bias row is the bias vector reshaped, so its entry (0, q) is the vector's entry q.
-/

set_option maxRecDepth 16384

noncomputable section

namespace Cert.KernelIdeal.Net

open Cert.KernelIdeal Cert.KernelIdeal.Gen Cert.KernelIdeal.Host Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first region's output array when the region is left: the first layer of the arguments. -/
theorem hidden_eq (c : Dev nD) :
    W2 m ρ c (Proc.devRef .tc main_v15)
      = layerRelu (N := 50000) (m ((c : Thread nD τ).loc main_arg0))
          (aggOf (F := Ideal) (srcOf (m ((c : Thread nD τ).loc main_arg1))) (dstOf (m ((c : Thread nD τ).loc main_arg1))) (m ((c : Thread nD τ).loc main_arg0)))
          (m ((c : Thread nD τ).loc main_arg2)) (m ((c : Thread nD τ).loc main_arg3))
          (fun q => ((m ((c : Thread nD τ).loc main_arg4)) : S64.Idx → EReal) (ix1 q)) := by
  refine (W2_arr m ρ c 5).trans ?_
  rw [Region0.final (V1 m ρ) c, V1_arg0, V1_agg, V1_arg2, V1_arg3, V1_bias]
  simp only [bias_row_apply]

/-- The result buffer in the final memory: the network of the arguments. -/
theorem out_eq (c : Dev nD) :
    W4 m ρ c (Proc.devRef .tc main_v27)
      = net (aggOf (F := Ideal) (srcOf (m ((c : Thread nD τ).loc main_arg1))) (dstOf (m ((c : Thread nD τ).loc main_arg1))))
          (m ((c : Thread nD τ).loc main_arg0)) (m ((c : Thread nD τ).loc main_arg2)) (m ((c : Thread nD τ).loc main_arg3))
          (fun q => ((m ((c : Thread nD τ).loc main_arg4)) : S64.Idx → EReal) (ix1 q))
          (m ((c : Thread nD τ).loc main_arg5)) (m ((c : Thread nD τ).loc main_arg6))
          (fun q => ((m ((c : Thread nD τ).loc main_arg7)) : S64.Idx → EReal) (ix1 q)) := by
  refine (W4_arr m ρ c 5).trans ?_
  rw [Region1.final (V3 m ρ) c, V3_feat, V3_agg, V3_arg5, V3_arg6, V3_bias, hidden_eq]
  simp only [bias_row_apply]
  rfl

/-- The run of the idealized kernel program: it terminates without a fault, the result buffer holds the network of the
    arguments, and the arguments are as launched. -/
theorem run : θ_run defs (onTc (τ := τ) (main (F := Ideal))) ⟨m, fun _ => 0, ρ⟩ (fun r => ∀ c : Dev nD,
      r.2.mem ((c.tc : Thread nD τ).loc main_v27)
        = net (aggOf (F := Ideal) (srcOf (m ((c : Thread nD τ).loc main_arg1))) (dstOf (m ((c : Thread nD τ).loc main_arg1))))
            (m ((c : Thread nD τ).loc main_arg0)) (m ((c : Thread nD τ).loc main_arg2)) (m ((c : Thread nD τ).loc main_arg3))
            (fun q => ((m ((c : Thread nD τ).loc main_arg4)) : S64.Idx → EReal) (ix1 q))
            (m ((c : Thread nD τ).loc main_arg5)) (m ((c : Thread nD τ).loc main_arg6))
            (fun q => ((m ((c : Thread nD τ).loc main_arg7)) : S64.Idx → EReal) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.Out.run_out (F := Ideal) m ρ)

end Cert.KernelIdeal.Net

end
-- ==== Proof.RefValue.lean ====
import proofs.«175846_j13529146982743_1_alg».proof.Proof.Gen.ReferenceIdeal.Run
import proofs.«175846_j13529146982743_1_alg».proof.Proof.Spec
import Idealize.ShloMosaic.Lib.ValueIdx
import Idealize.ShloMosaic.Lib.Pipeline.Value

/-!
  The reference program's result as the two-layer network of its arguments.

  The reference computes, twice, the neighbour aggregation of a feature array (the same gather and scatter-add as the
  kernel program's host side), two whole-array matrix products added together, and the bias broadcast over the rows
  added last; after the first layer it takes the maximum with zero. A whole-array matrix product at the ideal values
  is the plain sum over the contracted axis, so each host layer is the specification's layer entry by entry.
-/

set_option maxRecDepth 16384

open scoped BigOperators

noncomputable section

namespace Cert.ReferenceIdeal.RefValue

open Cert.ReferenceIdeal Cert.ReferenceIdeal.Gen Cert.ReferenceIdeal.Value Cert.Spec
open Idealize.ShloMosaic Idealize.ShloMosaic.TcCoe Idealize.ShloMosaic.ValueIdx Idealize.SL.Sem

variable {F : FTy → Type} [FloatOps F]

/-- The source ids: row 0 of the edge list. -/
def srcOf (e : IVec S2x800000 32) : IVec S800000 32 :=
  shapeCast _ (extractStridedSlice S1x800000 ![0, 0] e Facts₀.slices_S2x800000_S1x800000_0_0) Facts₀.shapeCasts_S1x800000_S800000

/-- The destination ids: row 1 of the edge list. -/
def dstOf (e : IVec S2x800000 32) : IVec S800000 32 :=
  shapeCast _ (extractStridedSlice S1x800000 ![1, 0] e Facts₀.slices_S2x800000_S1x800000_1_0) Facts₀.shapeCasts_S1x800000_S800000

/-- The neighbour aggregation of a feature array: rows gathered at the wrapped source ids, scatter-added at the
    destination ids into zeros. -/
def aggOf (s d : IVec S800000 32) (f : FVec F S50000x64 .f32) : FVec F S50000x64 .f32 :=
  Host.scatterAdd scatter_S50000x64_S800000x1_S800000x64_1_0_0_1
    (broadcastInDim S50000x64 ![] Facts₀.bcast_S_S50000x64 (constant S_ .f32 0x00000000#32))
    (broadcastInDim S800000x1 ![0] Facts₀.bcast_S800000_S800000x1_0 d)
    (Host.gather gather_S50000x64_S800000x1_S800000x64_1_0_n_n_0_1_164 f
      (broadcastInDim S800000x1 ![0] Facts₀.bcast_S800000_S800000x1_0
        (select (cmpi .slt s (broadcastInDim S800000 ![] Facts₀.bcast_S_S800000 (constantI S_ 32 0#32)))
          (addi s (broadcastInDim S800000 ![] Facts₀.bcast_S_S800000 (constantI S_ 32 50000#32))) s)))

/-- One layer as the host computes it: two whole-array products added, then the bias broadcast over the rows. -/
def hostLayer (x a : FVec F S50000x64 .f32) (wr wn : FVec F S64x64 .f32) (b : FVec F S64 .f32) : FVec F S50000x64 .f32 :=
  addf (addf (Host.dotGeneral dot_S50000x64_S64x64_S50000x64_1_0_0_1_n_n none x wr)
      (Host.dotGeneral dot_S50000x64_S64x64_S50000x64_1_0_0_1_n_n none a wn))
    (broadcastInDim S50000x64 ![0, 1] Facts₀.bcast_S1x64_S50000x64_0_1 (broadcastInDim S1x64 ![1] Facts₀.bcast_S64_S1x64_1 b))

/-- The maximum with the zero splat. -/
def hostRelu (y : FVec F S50000x64 .f32) : FVec F S50000x64 .f32 :=
  maximumf y (broadcastInDim S50000x64 ![] Facts₀.bcast_S_S50000x64 (constant S_ .f32 0x00000000#32))

/-- The reference's result term, folded: the second host layer on the first layer's result and its aggregation. -/
theorem res_eq (m : (ℓ : Loc nD τ sig) → Buf (Elt F) ℓ) (c : Dev nD) :
    res_main_v36 m c
      = hostLayer
          (hostRelu (hostLayer (m ((c.tc : Thread nD τ).loc main_arg0))
            (aggOf (srcOf (m ((c.tc : Thread nD τ).loc main_arg1))) (dstOf (m ((c.tc : Thread nD τ).loc main_arg1))) (m ((c.tc : Thread nD τ).loc main_arg0)))
            (m ((c.tc : Thread nD τ).loc main_arg2)) (m ((c.tc : Thread nD τ).loc main_arg3)) (m ((c.tc : Thread nD τ).loc main_arg4))))
          (aggOf (srcOf (m ((c.tc : Thread nD τ).loc main_arg1))) (dstOf (m ((c.tc : Thread nD τ).loc main_arg1)))
            (hostRelu (hostLayer (m ((c.tc : Thread nD τ).loc main_arg0))
              (aggOf (srcOf (m ((c.tc : Thread nD τ).loc main_arg1))) (dstOf (m ((c.tc : Thread nD τ).loc main_arg1))) (m ((c.tc : Thread nD τ).loc main_arg0)))
              (m ((c.tc : Thread nD τ).loc main_arg2)) (m ((c.tc : Thread nD τ).loc main_arg3)) (m ((c.tc : Thread nD τ).loc main_arg4)))))
          (m ((c.tc : Thread nD τ).loc main_arg5)) (m ((c.tc : Thread nD τ).loc main_arg6)) (m ((c.tc : Thread nD τ).loc main_arg7)) := by
  unfold res_main_v36 hostLayer hostRelu aggOf srcOf dstOf
  rfl

/-- A whole-array product at (p, q). -/
theorem dot_apply {φ₁ φ₂ : FTy} (l : FVec Ideal S50000x64 φ₁) (r : FVec Ideal S64x64 φ₂) (p : Fin 50000) (q : Fin 64) :
    Host.dotGeneral dot_S50000x64_S64x64_S50000x64_1_0_0_1_n_n none l r (ix2 p q)
      = ∑ k : Fin 64, l (ix2 p k) * r (ix2 k q) :=
  Cert.Lib.PlainDot.dotGeneral_apply (M := 50000) (K := 64) (N := 64) dot_S50000x64_S64x64_S50000x64_1_0_0_1_n_n
    rfl rfl rfl rfl rfl rfl none .single l r p q

/-- The bias broadcast to a row and then over the rows reads, at (p, q), the vector's entry q. -/
theorem bias_apply {α : Type} (b : S64.Idx → α) (p : Fin 50000) (q : Fin 64) :
    broadcastInDim S50000x64 ![0, 1] Facts₀.bcast_S1x64_S50000x64_0_1 (broadcastInDim S1x64 ![1] Facts₀.bcast_S64_S1x64_1 b) (ix2 p q)
      = b (ix1 q) :=
  (broadcastInDim_apply ![0, 1] Facts₀.bcast_S1x64_S50000x64_0_1 _ (ix2 p q) (ix2 0 q) (fun a => by
      match a with
      | ⟨0, _⟩ => rfl
      | ⟨1, _⟩ => rfl)).trans
    (broadcastInDim_apply ![1] Facts₀.bcast_S64_S1x64_1 b (ix2 0 q) (ix1 q) (fun a => by
      match a with
      | ⟨0, _⟩ => rfl))

/-- The host's layer is the specification's, entry by entry. -/
theorem hostLayer_eq (x a : FVec Ideal S50000x64 .f32) (wr wn : FVec Ideal S64x64 .f32) (b : FVec Ideal S64 .f32) :
    hostLayer (F := Ideal) x a wr wn b = layer (N := 50000) x a wr wn (fun q => b (ix1 q)) := by
  funext i
  obtain ⟨p, q, rfl⟩ : ∃ (p : Fin 50000) (q : Fin 64), i = ix2 p q := ⟨i 0, i 1, eq_ix2 i⟩
  unfold hostLayer
  rw [layer_ix2, addf_apply, addf_apply, dot_apply, dot_apply, bias_apply]
  rfl

/-- The host's layer followed by its maximum is the specification's. -/
theorem hostRelu_hostLayer_eq (x a : FVec Ideal S50000x64 .f32) (wr wn : FVec Ideal S64x64 .f32) (b : FVec Ideal S64 .f32) :
    hostRelu (F := Ideal) (hostLayer (F := Ideal) x a wr wn b) = layerRelu (N := 50000) x a wr wn (fun q => b (ix1 q)) := by
  funext i
  obtain ⟨p, q, rfl⟩ : ∃ (p : Fin 50000) (q : Fin 64), i = ix2 p q := ⟨i 0, i 1, eq_ix2 i⟩
  unfold hostRelu
  rw [maximumf_apply, hostLayer_eq, layer_ix2, layerRelu_ix2]
  rfl

/-- The reference's result is the network over its own aggregation. -/
theorem res_net (m : (ℓ : Loc nD τ sig) → Buf (Elt Ideal) ℓ) (c : Dev nD) :
    res_main_v36 (F := Ideal) m c
      = net (aggOf (F := Ideal) (srcOf (m ((c.tc : Thread nD τ).loc main_arg1))) (dstOf (m ((c.tc : Thread nD τ).loc main_arg1))))
          (m ((c.tc : Thread nD τ).loc main_arg0))
          (m ((c.tc : Thread nD τ).loc main_arg2)) (m ((c.tc : Thread nD τ).loc main_arg3))
          (fun q => (m ((c.tc : Thread nD τ).loc main_arg4) : S64.Idx → EReal) (ix1 q))
          (m ((c.tc : Thread nD τ).loc main_arg5)) (m ((c.tc : Thread nD τ).loc main_arg6))
          (fun q => (m ((c.tc : Thread nD τ).loc main_arg7) : S64.Idx → EReal) (ix1 q)) := by
  rw [res_eq, hostRelu_hostLayer_eq, hostLayer_eq]
  rfl

end Cert.ReferenceIdeal.RefValue

end
-- ==== Proof.lean ====
/-
  A two-layer graph convolution on 50000 nodes of 64 features over 800000 edges: the kernel program against its
  plain reference, equal over the extended reals.

  Both programs compute, with `agg f` the neighbour aggregation of a feature array (rows of f gathered at the source
  ids and scatter-added at the destination ids),

      h   = max((x · W1_root + agg x · W1_nbr) + b1, 0),
      out = (h · W2_root + agg h · W2_nbr) + b2.

  The kernel program computes `agg` on the host exactly as the reference does and each dense layer in a kernel region
  that walks the rows 5000 at a time, multiplying in a narrower float format into a zero accumulator. At the ideal
  values a change of format is the identity and a matrix product is the plain sum over the contracted axis, and an
  entry of a layer reads one row of its feature arrays, so each region's output is the layer of the whole arrays, with
  the same grouping of the additions as the reference: no law of arithmetic beyond that is used, and the finiteness
  of the inputs is never opened. The two programs' aggregations are one function because they are the same
  operations over the same dimension records.

  The three frames: the two kernel programs' are the generated frame certificates; the reference's is its generated
  run with the result dropped. The idealization rewrote no operation, so `preserves` is trivial.
-/
import proofs.«175846_j13529146982743_1_alg».proof.Defs
import proofs.«175846_j13529146982743_1_alg».proof.Proof.Gen.Kernel
import proofs.«175846_j13529146982743_1_alg».proof.Proof.Gen.Kernel.Skeleton
import proofs.«175846_j13529146982743_1_alg».proof.Proof.Gen.Kernel.Launch
import proofs.«175846_j13529146982743_1_alg».proof.Proof.Gen.Kernel.Points
import proofs.«175846_j13529146982743_1_alg».proof.Proof.Gen.Kernel.Frame
import proofs.«175846_j13529146982743_1_alg».proof.Proof.Gen.KernelIdeal
import proofs.«175846_j13529146982743_1_alg».proof.Proof.Gen.KernelIdeal.Skeleton
import proofs.«175846_j13529146982743_1_alg».proof.Proof.Gen.KernelIdeal.Launch
import proofs.«175846_j13529146982743_1_alg».proof.Proof.Gen.KernelIdeal.Points
import proofs.«175846_j13529146982743_1_alg».proof.Proof.Gen.KernelIdeal.Frame
import proofs.«175846_j13529146982743_1_alg».proof.Proof.Gen.ReferenceIdeal
import proofs.«175846_j13529146982743_1_alg».proof.Proof.Gen.ReferenceIdeal.Run
import proofs.«175846_j13529146982743_1_alg».proof.Proof.Gen.Pre_finite_inputs
import proofs.«175846_j13529146982743_1_alg».proof.Proof.KValue
import proofs.«175846_j13529146982743_1_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

/-- The two programs' aggregations are one function: the same host operations over equal dimension records. -/
theorem agg_eq (e : IVec Cert.KernelIdeal.S2x800000 32) :
    Cert.ReferenceIdeal.RefValue.aggOf (F := Ideal) (Cert.ReferenceIdeal.RefValue.srcOf e) (Cert.ReferenceIdeal.RefValue.dstOf e)
      = Cert.KernelIdeal.Host.aggOf (F := Ideal) (Cert.KernelIdeal.Host.srcOf e) (Cert.KernelIdeal.Host.dstOf e) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.res_net, a0, a1, a2, a3, a4, a5, a6, a7, agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
